-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x16 : Shape := ⟨2, ![524288, 16]⟩
abbrev S16x64 : Shape := ⟨2, ![16, 64]⟩
abbrev S1x64 : Shape := ⟨2, ![1, 64]⟩
abbrev S64x32 : Shape := ⟨2, ![64, 32]⟩
abbrev S1x32 : Shape := ⟨2, ![1, 32]⟩
abbrev S32x4 : Shape := ⟨2, ![32, 4]⟩
abbrev S1x4 : Shape := ⟨2, ![1, 4]⟩
abbrev S_ : Shape := ⟨0, ![]⟩

class Facts : Prop where
  bcast_S_S524288x16 : S_.BroadcastsInDim S524288x16 (![] : Fin 0 → Fin S524288x16.rank)
  reducesTo_S524288x16_S_d0_1 : S524288x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S1x64 : S_.BroadcastsInDim S1x64 (![] : Fin 0 → Fin S1x64.rank)
  reducesTo_S1x64_S_d0_1 : S1x64.ReducesTo [0, 1] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_
  bcast_S_S32x4 : S_.BroadcastsInDim S32x4 (![] : Fin 0 → Fin S32x4.rank)
  reducesTo_S32x4_S_d0_1 : S32x4.ReducesTo [0, 1] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x32 .f32) (main_arg5 : FVec F S32x4 .f32) (main_arg6 : FVec F S1x4 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32x4 .f32 := Host.absf main_arg5
  let main_cst_8 : FVec F S_ .f32 := constant S_ .f32 0x7F800000#32
  let main_v25 : FVec F S32x4 .f32 := broadcastInDim S32x4 ![] bcast_S_S32x4 main_cst_8
  let main_v26 : IVec S32x4 1 := cmpf .olt main_v24 main_v25
  let main_c_9 : IVec S_ 1 := constantI S_ 1 1#1
  let main_v27 : IVec S_ 1 := (fun x v => Host.reduce IntOp.andi x v reducesTo_S32x4_S_d0_1 h_S_) main_v26 main_c_9
  let main_v28 : IVec S_ 1 := andi main_v23 main_v27
  let main_v29 : FVec F S1x4 .f32 := Host.absf main_arg6
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  main_v33

def fn {F : FTy → Type} [FloatOps F] (main_arg0 : FVec F S524288x16 .f32) (main_arg1 : FVec F S16x64 .f32) (main_arg2 : FVec F S1x64 .f32) (main_arg3 : FVec F S64x32 .f32) (main_arg4 : FVec F S1x32 .f32) (main_arg5 : FVec F S32x4 .f32) (main_arg6 : FVec F S1x4 .f32) : IVec S_ 1 :=
  let main_v0 : FVec F S524288x16 .f32 := Host.absf main_arg0
  let main_cst : FVec F S_ .f32 := constant S_ .f32 0x7F800000#32
  let main_v1 : FVec F S524288x16 .f32 := broadcastInDim S524288x16 ![] bcast_S_S524288x16 main_cst
  let main_v2 : IVec S524288x16 1 := cmpf .olt main_v0 main_v1
  let main_c : IVec S_ 1 := constantI S_ 1 1#1
  let main_v3 : IVec S_ 1 := (fun x v => Host.reduce IntOp.andi x v reducesTo_S524288x16_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S524288x16 : Shape := ⟨2, ![524288, 16]⟩
abbrev S16x64 : Shape := ⟨2, ![16, 64]⟩
abbrev S1x64 : Shape := ⟨2, ![1, 64]⟩
abbrev S64x32 : Shape := ⟨2, ![64, 32]⟩
abbrev S1x32 : Shape := ⟨2, ![1, 32]⟩
abbrev S32x4 : Shape := ⟨2, ![32, 4]⟩
abbrev S1x4 : Shape := ⟨2, ![1, 4]⟩
abbrev S16x524288 : Shape := ⟨2, ![16, 524288]⟩
abbrev S32x64 : Shape := ⟨2, ![32, 64]⟩
abbrev S4x32 : Shape := ⟨2, ![4, 32]⟩
abbrev S4x524288 : Shape := ⟨2, ![4, 524288]⟩
abbrev S524288x4 : Shape := ⟨2, ![524288, 4]⟩
abbrev S16x65536 : Shape := ⟨2, ![16, 65536]⟩
abbrev S4x65536 : Shape := ⟨2, ![4, 65536]⟩
abbrev S64x65536 : Shape := ⟨2, ![64, 65536]⟩
abbrev S64x1 : Shape := ⟨2, ![64, 1]⟩
abbrev S32x65536 : Shape := ⟨2, ![32, 65536]⟩
abbrev S32x1 : Shape := ⟨2, ![32, 1]⟩
abbrev S4x1 : Shape := ⟨2, ![4, 1]⟩

abbrev nBuf : Space → Nat
  | .hbm => 12
  | .vmem => 10
  | .smem => 0
  | _ => 0

abbrev bufTy : (tb : Table) → Fin (tcTables nBuf tb) → BufTy
  | .hbm, ⟨0, _⟩ => ⟨S524288x16, .f32⟩
  | .hbm, ⟨1, _⟩ => ⟨S16x64, .f32⟩
  | .hbm, ⟨2, _⟩ => ⟨S1x64, .f32⟩
  | .hbm, ⟨3, _⟩ => ⟨S64x32, .f32⟩
  | .hbm, ⟨4, _⟩ => ⟨S1x32, .f32⟩
  | .hbm, ⟨5, _⟩ => ⟨S32x4, .f32⟩
  | .hbm, ⟨6, _⟩ => ⟨S1x4, .f32⟩
  | .hbm, ⟨7, _⟩ => ⟨S16x524288, .f32⟩
  | .hbm, ⟨8, _⟩ => ⟨S32x64, .f32⟩
  | .hbm, ⟨9, _⟩ => ⟨S4x32, .f32⟩
  | .hbm, ⟨10, _⟩ => ⟨S4x524288, .f32⟩
  | .hbm, ⟨11, _⟩ => ⟨S524288x4, .f32⟩
  | .local _ .vmem, ⟨0, _⟩ => ⟨S16x65536, .f32⟩
  | .local _ .vmem, ⟨1, _⟩ => ⟨S16x65536, .f32⟩
  | .local _ .vmem, ⟨2, _⟩ => ⟨S16x64, .f32⟩
  | .local _ .vmem, ⟨3, _⟩ => ⟨S1x64, .f32⟩
  | .local _ .vmem, ⟨4, _⟩ => ⟨S32x64, .f32⟩
  | .local _ .vmem, ⟨5, _⟩ => ⟨S1x32, .f32⟩
  | .local _ .vmem, ⟨6, _⟩ => ⟨S4x32, .f32⟩
  | .local _ .vmem, ⟨7, _⟩ => ⟨S1x4, .f32⟩
  | .local _ .vmem, ⟨8, _⟩ => ⟨S4x65536, .f32⟩
  | .local _ .vmem, ⟨9, _⟩ => ⟨S4x65536, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x65536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S524288x16_S16x524288_1_0 : S524288x16.Transposes [1, 0] S16x524288
  transposes_S64x32_S32x64_1_0 : S64x32.Transposes [1, 0] S32x64
  transposes_S32x4_S4x32_1_0 : S32x4.Transposes [1, 0] S4x32
  transposes_S4x524288_S524288x4_1_0 : S4x524288.Transposes [1, 0] S524288x4
  inb_S16x65536_S16x65536_0_0 : ∀ a, (![0, 0] : Fin 2 → Nat) a + S16x65536.size a ≤ S16x65536.size a
  h_S16x65536 : 0 < S16x65536.numel
  shapeCasts_S16x65536_S16x65536 : S16x65536.ShapeCasts S16x65536
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  broadcasts_S64x1_S64x65536 : S64x1.Broadcasts S64x65536
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  broadcasts_S32x1_S32x65536 : S32x1.Broadcasts S32x65536
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S1x4_S1x4_0_0 : ∀ a, (![0, 0] : Fin 2 → Nat) a + S1x4.size a ≤ S1x4.size a
  h_S1x4 : 0 < S1x4.numel
  transposes_S1x4_p1_0_S4x1 : S1x4.Transposes [1, 0] S4x1
  broadcasts_S4x1_S4x65536 : S4x1.Broadcasts S4x65536
  inb_S4x65536_S4x65536_0_0 : ∀ a, (![0, 0] : Fin 2 → Nat) a + S4x65536.size a ≤ S4x65536.size a
  h_S4x65536 : 0 < S4x65536.numel
  dot_S16x64_S16x65536_S64x65536_0_0_1_1_n_n_wf : DotDims.WF S16x64 S16x65536 S64x65536 [0] [0] [1] [1] [] []
  dot_S32x64_S64x65536_S32x65536_1_0_0_1_n_n_wf : DotDims.WF S32x64 S64x65536 S32x65536 [1] [0] [0] [1] [] []
  dot_S4x32_S32x65536_S4x65536_1_0_0_1_n_n_wf : DotDims.WF S4x32 S32x65536 S4x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x65536.size a ≤ S16x524288.size a
  hwx0_0 : ∀ i : grid0.Coords, EltTy.bits .f32 = 32 ∨ (Rect.block (s := S16x524288) S16x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .f32 = 32 ∨ (Rect.block (s := S4x32) S4x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x65536.size a ≤ S4x524288.size a
  hwx0_7 : ∀ i : grid0.Coords, EltTy.bits .f32 = 32 ∨ (Rect.block (s := S4x524288) S4x65536.size (cc0_transform_7 i) (hinb0_7 i)).WholeWords (EltTy.packing .f32)

variable [Facts₀]

def dot_S16x64_S16x65536_S64x65536_0_0_1_1_n_n : DotDims S16x64 S16x65536 S64x65536 where
  lhsContracting := [0]
  rhsContracting := [0]
  lhsNonContracting := [1]
  rhsNonContracting := [1]
  lhsBatch := []
  rhsBatch := []
  wf := dot_S16x64_S16x65536_S64x65536_0_0_1_1_n_n_wf
def dot_S32x64_S64x65536_S32x65536_1_0_0_1_n_n : DotDims S32x64 S64x65536 S32x65536 where
  lhsContracting := [1]
  rhsContracting := [0]
  lhsNonContracting := [0]
  rhsNonContracting := [1]
  lhsBatch := []
  rhsBatch := []
  wf := dot_S32x64_S64x65536_S32x65536_1_0_0_1_n_n_wf
def dot_S4x32_S32x65536_S4x65536_1_0_0_1_n_n : DotDims S4x32 S32x65536 S4x65536 where
  lhsContracting := [1]
  rhsContracting := [0]
  lhsNonContracting := [0]
  rhsNonContracting := [1]
  lhsBatch := []
  rhsBatch := []
  wf := dot_S4x32_S32x65536_S4x65536_1_0_0_1_n_n_wf

abbrev win0_0 : Pipeline.Window sig grid0 :=
  Pipeline.Window.ofSpec (Memref.whole main_call0_v0) S16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S4x65536.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x16 : Shape := ⟨2, ![524288, 16]⟩
abbrev S16x64 : Shape := ⟨2, ![16, 64]⟩
abbrev S1x64 : Shape := ⟨2, ![1, 64]⟩
abbrev S64x32 : Shape := ⟨2, ![64, 32]⟩
abbrev S1x32 : Shape := ⟨2, ![1, 32]⟩
abbrev S32x4 : Shape := ⟨2, ![32, 4]⟩
abbrev S1x4 : Shape := ⟨2, ![1, 4]⟩
abbrev S524288x4 : Shape := ⟨2, ![524288, 4]⟩
abbrev S2048x16 : Shape := ⟨2, ![2048, 16]⟩
abbrev S2048x4 : Shape := ⟨2, ![2048, 4]⟩
abbrev S2048x64 : Shape := ⟨2, ![2048, 64]⟩
abbrev S2048x32 : Shape := ⟨2, ![2048, 32]⟩

abbrev nBuf : Space → Nat
  | .hbm => 8
  | .vmem => 10
  | .smem => 0
  | _ => 0

abbrev bufTy : (tb : Table) → Fin (tcTables nBuf tb) → BufTy
  | .hbm, ⟨0, _⟩ => ⟨S524288x16, .f32⟩
  | .hbm, ⟨1, _⟩ => ⟨S16x64, .f32⟩
  | .hbm, ⟨2, _⟩ => ⟨S1x64, .f32⟩
  | .hbm, ⟨3, _⟩ => ⟨S64x32, .f32⟩
  | .hbm, ⟨4, _⟩ => ⟨S1x32, .f32⟩
  | .hbm, ⟨5, _⟩ => ⟨S32x4, .f32⟩
  | .hbm, ⟨6, _⟩ => ⟨S1x4, .f32⟩
  | .hbm, ⟨7, _⟩ => ⟨S524288x4, .f32⟩
  | .local _ .vmem, ⟨0, _⟩ => ⟨S2048x16, .f32⟩
  | .local _ .vmem, ⟨1, _⟩ => ⟨S2048x16, .f32⟩
  | .local _ .vmem, ⟨2, _⟩ => ⟨S16x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x4, .f32⟩
  | .local _ .vmem, ⟨7, _⟩ => ⟨S1x4, .f32⟩
  | .local _ .vmem, ⟨8, _⟩ => ⟨S2048x4, .f32⟩
  | .local _ .vmem, ⟨9, _⟩ => ⟨S2048x4, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x16_S2048x16_0_0 : ∀ a, (![0, 0] : Fin 2 → Nat) a + S2048x16.size a ≤ S2048x16.size a
  h_S2048x16 : 0 < S2048x16.numel
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S2048x32 : S1x32.Broadcasts S2048x32
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  dot_S2048x16_S16x64_S2048x64_1_0_0_1_n_n_wf : DotDims.WF S2048x16 S16x64 S2048x64 [1] [0] [0] [1] [] []
  dot_S2048x64_S64x32_S2048x32_1_0_0_1_n_n_wf : DotDims.WF S2048x64 S64x32 S2048x32 [1] [0] [0] [1] [] []
  dot_S2048x32_S32x4_S2048x4_1_0_0_1_n_n_wf : DotDims.WF S2048x32 S32x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S524288x16.size a
  hwx0_0 : ∀ i : grid0.Coords, EltTy.bits .f32 = 32 ∨ (Rect.block (s := S524288x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x4.size a ≤ S32x4.size a
  hwx0_5 : ∀ i : grid0.Coords, EltTy.bits .f32 = 32 ∨ (Rect.block (s := S32x4) S32x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x4.size a ≤ S524288x4.size a
  hwx0_7 : ∀ i : grid0.Coords, EltTy.bits .f32 = 32 ∨ (Rect.block (s := S524288x4) S2048x4.size (cc0_transform_7 i) (hinb0_7 i)).WholeWords (EltTy.packing .f32)

variable [Facts₀]

def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x4_S2048x4_1_0_0_1_n_n : DotDims S2048x32 S32x4 S2048x4 where
  lhsContracting := [1]
  rhsContracting := [0]
  lhsNonContracting := [0]
  rhsNonContracting := [1]
  lhsBatch := []
  rhsBatch := []
  wf := dot_S2048x32_S32x4_S2048x4_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Columns.lean ====
/-
  A dense layer computed column by column.

  When every sample is a COLUMN of the activation array (features down, samples across), a layer multiplies the
  weight matrix from the left: entry (j, n) of the result is the sum over k of W'(j, k) · h(k, n), where W' is the
  weight matrix laid out with the output feature first, or — for a weight matrix kept features-first-by-input,
  contracted on its rows — the sum over k of W(k, j) · h(k, n). The bias is then a column laid along every sample.
  Either way, entry (j, n) is the row-wise layer of sample n at output feature j, because the products under the
  sum commute.
-/
import Idealize.ShloMosaic.Lib.ValueIdx
import Idealize.ShloMosaic.Lib.ValueLayout
import Idealize.ShloMosaic.Lib.Pipeline.Value
import Idealize.ShloMosaic.PureOps.Ideal.Laws
import proofs.«100405_g2000005928858558_pallasbulk_957_15_alg».proof.Proof.LibDense

noncomputable section

namespace Cert.Columns

open Idealize.ShloMosaic Idealize.ShloMosaic.ValueIdx Cert.LibDense

/-! ## Both operands contracted on their rows -/

/-- Dimension numbers of a `K × N` by `K × T` product contracting the ROWS of both operands: the result is `N × T`. -/
def rowsRows (K N T : Nat) : DotDims ⟨2, ![K, N]⟩ ⟨2, ![K, T]⟩ ⟨2, ![N, T]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section RowsRows

variable {K N T : ℕ}

/-- The left operand's column is the result's row. -/
theorem rowsRows_lhs_col (i : (⟨2, ![N, T]⟩ : Shape).Idx) (q : (rowsRows K N T).contr.Idx) :
    ((rowsRows K N T).lhsIdx i q 1).val = (i 0).val := by
  unfold DotDims.lhsIdx
  rw [dif_neg (show ¬(1 : Fin (⟨2, ![K, N]⟩ : Shape).rank) ∈ (rowsRows K N T).lhsBatch from fun h => nomatch h),
    dif_pos (show (1 : Fin (⟨2, ![K, N]⟩ : Shape).rank) ∈ (rowsRows K N T).lhsNonContracting from List.mem_singleton.mpr rfl)]
  rfl

/-- Its row is the contraction position. -/
theorem rowsRows_lhs_row (i : (⟨2, ![N, T]⟩ : Shape).Idx) (q : (rowsRows K N T).contr.Idx) :
    ((rowsRows K N T).lhsIdx i q 0).val = (q ⟨0, Nat.one_pos⟩).val :=
  (rowsRows K N T).lhsIdx_val_of_single rfl i q

/-- The right operand's row is the contraction position. -/
theorem rowsRows_rhs_row (i : (⟨2, ![N, T]⟩ : Shape).Idx) (q : (rowsRows K N T).contr.Idx) :
    ((rowsRows K N T).rhsIdx i q 0).val = (q ⟨0, Nat.one_pos⟩).val :=
  (rowsRows K N T).rhsIdx_val_of_single rfl i q

/-- Its column is the result's column. -/
theorem rowsRows_rhs_col (i : (⟨2, ![N, T]⟩ : Shape).Idx) (q : (rowsRows K N T).contr.Idx) :
    ((rowsRows K N T).rhsIdx i q 1).val = (i 1).val := by
  unfold DotDims.rhsIdx
  rw [dif_neg (show ¬(1 : Fin (⟨2, ![K, T]⟩ : Shape).rank) ∈ (rowsRows K N T).rhsBatch from fun h => nomatch h),
    dif_pos (show (1 : Fin (⟨2, ![K, T]⟩ : Shape).rank) ∈ (rowsRows K N T).rhsNonContracting from List.mem_singleton.mpr rfl)]
  rfl

/-- The product into a zero accumulator read at (j, n): the sum over the shared row index. -/
theorem matmul_rowsRows_zero_apply {φ₁ φ₂ : FTy} (prec : Option ContractPrecision) (lhs : FVec Ideal ⟨2, ![K, N]⟩ φ₁)
    (rhs : FVec Ideal ⟨2, ![K, T]⟩ φ₂) (j : Fin N) (n : Fin T) :
    FloatOps.matmul (rowsRows K N T) prec lhs rhs (constant ⟨2, ![N, T]⟩ .f32 0x00000000#32) (ix2 j n)
      = ∑ k : Fin K, lhs (ix2 k j) * rhs (ix2 k n) := by
  rw [Ideal.matmul_constant_zero_apply, ← Equiv.sum_comp (contrEquiv1 (rowsRows K N T) K rfl rfl).symm]
  refine Finset.sum_congr rfl fun k _ => ?_
  have hk := contrEquiv1_symm_val (rowsRows K N T) K rfl rfl k
  have el : (rowsRows K N T).lhsIdx (ix2 j n) ((contrEquiv1 (rowsRows K N T) K rfl rfl).symm k) = ix2 k j :=
    funext fun a => Fin.ext (by
      match a with
      | ⟨0, _⟩ => exact (rowsRows_lhs_row _ _).trans hk
      | ⟨1, _⟩ => exact rowsRows_lhs_col _ _)
  have er : (rowsRows K N T).rhsIdx (ix2 j n) ((contrEquiv1 (rowsRows K N T) K rfl rfl).symm k) = ix2 k n :=
    funext fun a => Fin.ext (by
      match a with
      | ⟨0, _⟩ => exact (rowsRows_rhs_row _ _).trans hk
      | ⟨1, _⟩ => exact rowsRows_rhs_col _ _)
  rw [el, er]

end RowsRows

/-! ## A bias row stood up as a column and laid along every sample -/

/-- A one-row array transposed to a column and broadcast across `T` columns reads, at (j, n), the row's entry `j`. -/
theorem bias_column_apply {α : Type} {N T : ℕ} (b : (⟨2, ![1, N]⟩ : Shape).Idx → α)
    (ht : (⟨2, ![1, N]⟩ : Shape).Transposes [1, 0] ⟨2, ![N, 1]⟩)
    (hb : (⟨2, ![N, 1]⟩ : Shape).Broadcasts ⟨2, ![N, T]⟩) (j : Fin N) (n : Fin T) :
    broadcastTo ⟨2, ![N, T]⟩ (transpose ⟨2, ![N, 1]⟩ [1, 0] b ht) hb (ix2 j n) = b (ix2 (0 : Fin 1) j) := by
  rw [broadcastTo_apply (transpose ⟨2, ![N, 1]⟩ [1, 0] b ht) hb (ix2 j n) (ix2 j (0 : Fin 1)) (fun ax => by
    match ax with
    | ⟨0, _⟩ =>
      show j.val = if N = 1 then 0 else j.val
      split
      · have := j.isLt; omega
      · rfl
    | ⟨1, _⟩ => rfl)]
  exact transpose_ix2_apply b ht j (0 : Fin 1)

/-! ## The layers, column by column -/

section Layers

variable {K N T : ℕ} {φ₁ φ₂ : FTy}

/-- The first layer as the kernel spells it — the weights `K × N` contracted on their rows against the samples' columns,
    a zero accumulator, the bias stood up as a column, the maximum with a splat zero — read at (j, n), given sample
    `n`'s column. -/
theorem rows_layer_apply (d : DotDims ⟨2, ![K, N]⟩ ⟨2, ![K, T]⟩ ⟨2, ![N, T]⟩) (hd : d = rowsRows K N T)
    (prec : Option ContractPrecision) (W : FVec Ideal ⟨2, ![K, N]⟩ φ₁) (h : FVec Ideal ⟨2, ![K, T]⟩ φ₂)
    (b : FVec Ideal ⟨2, ![1, N]⟩ .f32) (ht : (⟨2, ![1, N]⟩ : Shape).Transposes [1, 0] ⟨2, ![N, 1]⟩)
    (hb : (⟨2, ![N, 1]⟩ : Shape).Broadcasts ⟨2, ![N, T]⟩) (j : Fin N) (n : Fin T)
    (col : Fin K → EReal) (hcol : ∀ k, h (ix2 k n) = col k) :
    maximumf (addf (matmul d prec W h (constant (F := Ideal) ⟨2, ![N, T]⟩ .f32 0x00000000#32))
          (broadcastTo ⟨2, ![N, T]⟩ (transpose ⟨2, ![N, 1]⟩ [1, 0] b ht) hb))
        (broadcast ⟨2, ![N, T]⟩ (Scalar.ofBits (F := Ideal) .f32 0x00000000#32)) (ix2 j n)
      = dense col (fun k j => W (ix2 k j)) (fun j => b (ix2 (0 : Fin 1) j)) j := by
  subst hd
  show max (FloatOps.matmul (rowsRows K N T) prec W h (constant ⟨2, ![N, T]⟩ .f32 0x00000000#32) (ix2 j n)
      + broadcastTo ⟨2, ![N, T]⟩ (transpose ⟨2, ![N, 1]⟩ [1, 0] b ht) hb (ix2 j n)) (Ideal.ofBits .f32 0x00000000#32) = _
  rw [matmul_rowsRows_zero_apply, bias_column_apply, Ideal.ofBits_zero_f32]
  unfold dense
  simp only [hcol]
  congr 2
  exact Finset.sum_congr rfl fun k _ => mul_comm _ _

/-- A later layer as the kernel spells it — the weights laid out output-feature-first, `N × K`, times the activations'
    columns `K × T` — read at (j, n), given sample `n`'s column. -/
theorem left_layer_apply (d : DotDims ⟨2, ![N, K]⟩ ⟨2, ![K, T]⟩ ⟨2, ![N, T]⟩) (hd : d = DotDims.plain N K T)
    (prec : Option ContractPrecision) (Wt : FVec Ideal ⟨2, ![N, K]⟩ φ₁) (h : FVec Ideal ⟨2, ![K, T]⟩ φ₂)
    (b : FVec Ideal ⟨2, ![1, N]⟩ .f32) (ht : (⟨2, ![1, N]⟩ : Shape).Transposes [1, 0] ⟨2, ![N, 1]⟩)
    (hb : (⟨2, ![N, 1]⟩ : Shape).Broadcasts ⟨2, ![N, T]⟩) (j : Fin N) (n : Fin T)
    (col : Fin K → EReal) (hcol : ∀ k, h (ix2 k n) = col k) :
    maximumf (addf (matmul d prec Wt h (constant (F := Ideal) ⟨2, ![N, T]⟩ .f32 0x00000000#32))
          (broadcastTo ⟨2, ![N, T]⟩ (transpose ⟨2, ![N, 1]⟩ [1, 0] b ht) hb))
        (broadcast ⟨2, ![N, T]⟩ (Scalar.ofBits (F := Ideal) .f32 0x00000000#32)) (ix2 j n)
      = dense col (fun k j => Wt (ix2 j k)) (fun j => b (ix2 (0 : Fin 1) j)) j := by
  subst hd
  show max (FloatOps.matmul (DotDims.plain N K T) prec Wt h (constant ⟨2, ![N, T]⟩ .f32 0x00000000#32) (ix2 j n)
      + broadcastTo ⟨2, ![N, T]⟩ (transpose ⟨2, ![N, 1]⟩ [1, 0] b ht) hb (ix2 j n)) (Ideal.ofBits .f32 0x00000000#32) = _
  rw [matmul_plain_zero_apply, bias_column_apply, Ideal.ofBits_zero_f32]
  unfold dense
  simp only [hcol]
  congr 2
  exact Finset.sum_congr rfl fun k _ => mul_comm _ _

end Layers

end Cert.Columns

end
-- ==== Proof.Actor.lean ====
/-
  The actor head on one sample, and the two ways a block of samples is pushed through it.

  A sample `x` (16 numbers) goes through two dense layers with ReLU (16 → 64 → 32) and a last dense layer (32 → 4)
  followed by tanh: output `a` is `tanh (∑ k, h₂ k · W₃ k a + b₃ a)` with `h₂ = dense (dense x W₁ b₁) W₂ b₂`.

  Samples laid out as ROWS of a block (samples × features) are multiplied by each weight matrix from the right;
  samples laid out as COLUMNS (features × samples) are multiplied from the left by the transposed weights, the biases
  standing as columns. Entry (r, a) of the first block and entry (a, n) of the second are both the head of that
  sample: under each sum the two factors are merely written in the other order.
-/
import proofs.«100405_g2000005928858558_pallasbulk_957_15_alg».proof.Proof.LibDense
import proofs.«100405_g2000005928858558_pallasbulk_957_15_alg».proof.Proof.Columns

noncomputable section

namespace Cert.Actor

open Idealize.ShloMosaic Idealize.ShloMosaic.ValueIdx Cert.LibDense Cert.Columns

/-- One sample through the head: output `a` of `tanh (dense₃ (relu-dense₂ (relu-dense₁ x)))`. -/
def head (x : Fin 16 → EReal) (W1 : Fin 16 → Fin 64 → EReal) (b1 : Fin 64 → EReal) (W2 : Fin 64 → Fin 32 → EReal)
    (b2 : Fin 32 → EReal) (W3 : Fin 32 → Fin 4 → EReal) (b3 : Fin 4 → EReal) (a : Fin 4) : EReal :=
  Ideal.tanh (∑ k : Fin 32, dense (dense x W1 b1) W2 b2 k * W3 k a + b3 a)

/-- The head depends on the sample, the weights and the biases only through their entries. -/
theorem head_congr {x x' : Fin 16 → EReal} {W1 W1' : Fin 16 → Fin 64 → EReal} {b1 b1' : Fin 64 → EReal}
    {W2 W2' : Fin 64 → Fin 32 → EReal} {b2 b2' : Fin 32 → EReal} {W3 W3' : Fin 32 → Fin 4 → EReal} {b3 b3' : Fin 4 → EReal}
    {a a' : Fin 4} (hx : ∀ k, x k = x' k) (h1 : ∀ k j, W1 k j = W1' k j) (hb1 : ∀ j, b1 j = b1' j)
    (h2 : ∀ k j, W2 k j = W2' k j) (hb2 : ∀ j, b2 j = b2' j) (h3 : ∀ k j, W3 k j = W3' k j) (hb3 : ∀ j, b3 j = b3' j)
    (ha : a = a') : head x W1 b1 W2 b2 W3 b3 a = head x' W1' b1' W2' b2' W3' b3' a' := by
  rw [show x = x' from funext hx, show W1 = W1' from funext fun k => funext (h1 k), show b1 = b1' from funext hb1,
    show W2 = W2' from funext fun k => funext (h2 k), show b2 = b2' from funext hb2,
    show W3 = W3' from funext fun k => funext (h3 k), show b3 = b3' from funext hb3, ha]

/-- The whole batch: row `n`, column `a` of the result is the head of sample `n` — row `n` of `X` — at output `a`. -/
def batch {B : ℕ} (X : (⟨2, ![B, 16]⟩ : Shape).Idx → EReal) (W1 : (⟨2, ![16, 64]⟩ : Shape).Idx → EReal)
    (b1 : (⟨2, ![1, 64]⟩ : Shape).Idx → EReal) (W2 : (⟨2, ![64, 32]⟩ : Shape).Idx → EReal)
    (b2 : (⟨2, ![1, 32]⟩ : Shape).Idx → EReal) (W3 : (⟨2, ![32, 4]⟩ : Shape).Idx → EReal)
    (b3 : (⟨2, ![1, 4]⟩ : Shape).Idx → EReal) : (⟨2, ![B, 4]⟩ : Shape).Idx → EReal :=
  fun i => head (fun k => X (ix2 (i 0) k)) (fun k j => W1 (ix2 k j)) (fun j => b1 (ix2 (0 : Fin 1) j))
    (fun k j => W2 (ix2 k j)) (fun j => b2 (ix2 (0 : Fin 1) j)) (fun k j => W3 (ix2 k j)) (fun j => b3 (ix2 (0 : Fin 1) j)) (i 1)

/-- The batch's entry at an index whose row holds the sample `x` and whose column is `a`. -/
theorem batch_apply {B : ℕ} (X : (⟨2, ![B, 16]⟩ : Shape).Idx → EReal) (W1 : (⟨2, ![16, 64]⟩ : Shape).Idx → EReal)
    (b1 : (⟨2, ![1, 64]⟩ : Shape).Idx → EReal) (W2 : (⟨2, ![64, 32]⟩ : Shape).Idx → EReal)
    (b2 : (⟨2, ![1, 32]⟩ : Shape).Idx → EReal) (W3 : (⟨2, ![32, 4]⟩ : Shape).Idx → EReal)
    (b3 : (⟨2, ![1, 4]⟩ : Shape).Idx → EReal) (i : (⟨2, ![B, 4]⟩ : Shape).Idx) (x : Fin 16 → EReal) (a : Fin 4)
    (hx : ∀ k, X (ix2 (i 0) k) = x k) (ha : i 1 = a) :
    batch X W1 b1 W2 b2 W3 b3 i
      = head x (fun k j => W1 (ix2 k j)) (fun j => b1 (ix2 (0 : Fin 1) j)) (fun k j => W2 (ix2 k j))
          (fun j => b2 (ix2 (0 : Fin 1) j)) (fun k j => W3 (ix2 k j)) (fun j => b3 (ix2 (0 : Fin 1) j)) a := by
  unfold batch
  rw [ha, show (fun k => X (ix2 (i 0) k)) = x from funext hx]

/-- A block of `M` samples as rows: entry (r, a) of the three products with biases, ReLUs and tanh is the head of
    row `r`. -/
theorem rows_block_apply {M : ℕ}
    (d1 : DotDims ⟨2, ![M, 16]⟩ ⟨2, ![16, 64]⟩ ⟨2, ![M, 64]⟩) (hd1 : d1 = DotDims.plain M 16 64)
    (d2 : DotDims ⟨2, ![M, 64]⟩ ⟨2, ![64, 32]⟩ ⟨2, ![M, 32]⟩) (hd2 : d2 = DotDims.plain M 64 32)
    (d3 : DotDims ⟨2, ![M, 32]⟩ ⟨2, ![32, 4]⟩ ⟨2, ![M, 4]⟩) (hd3 : d3 = DotDims.plain M 32 4)
    (x : FVec Ideal ⟨2, ![M, 16]⟩ .f32) (W1 : FVec Ideal ⟨2, ![16, 64]⟩ .f32) (b1 : FVec Ideal ⟨2, ![1, 64]⟩ .f32)
    (W2 : FVec Ideal ⟨2, ![64, 32]⟩ .f32) (b2 : FVec Ideal ⟨2, ![1, 32]⟩ .f32) (W3 : FVec Ideal ⟨2, ![32, 4]⟩ .f32)
    (b3 : FVec Ideal ⟨2, ![1, 4]⟩ .f32)
    (hb1 : (⟨2, ![1, 64]⟩ : Shape).Broadcasts ⟨2, ![M, 64]⟩) (hb2 : (⟨2, ![1, 32]⟩ : Shape).Broadcasts ⟨2, ![M, 32]⟩)
    (hb3 : (⟨2, ![1, 4]⟩ : Shape).Broadcasts ⟨2, ![M, 4]⟩) (r : Fin M) (a : Fin 4) :
    tanh (addf (matmul d3 none
        (maximumf (addf (matmul d2 none
            (maximumf (addf (matmul d1 none x W1 (constant (F := Ideal) ⟨2, ![M, 64]⟩ .f32 0x00000000#32)) (broadcastTo ⟨2, ![M, 64]⟩ b1 hb1))
              (broadcast ⟨2, ![M, 64]⟩ (Scalar.ofBits (F := Ideal) .f32 0x00000000#32)))
            W2 (constant (F := Ideal) ⟨2, ![M, 32]⟩ .f32 0x00000000#32)) (broadcastTo ⟨2, ![M, 32]⟩ b2 hb2))
          (broadcast ⟨2, ![M, 32]⟩ (Scalar.ofBits (F := Ideal) .f32 0x00000000#32)))
        W3 (constant (F := Ideal) ⟨2, ![M, 4]⟩ .f32 0x00000000#32)) (broadcastTo ⟨2, ![M, 4]⟩ b3 hb3)) (ix2 r a)
      = head (fun k => x (ix2 r k)) (fun k j => W1 (ix2 k j)) (fun j => b1 (ix2 (0 : Fin 1) j))
          (fun k j => W2 (ix2 k j)) (fun j => b2 (ix2 (0 : Fin 1) j)) (fun k j => W3 (ix2 k j))
          (fun j => b3 (ix2 (0 : Fin 1) j)) a := by
  subst hd3
  show Ideal.tanh (FloatOps.matmul (DotDims.plain M 32 4) none _ W3 (constant ⟨2, ![M, 4]⟩ .f32 0x00000000#32) (ix2 r a)
      + broadcastTo ⟨2, ![M, 4]⟩ b3 hb3 (ix2 r a)) = _
  rw [matmul_plain_zero_apply, broadcastTo_1b_ab_apply]
  unfold head
  congr 2
  refine Finset.sum_congr rfl fun k _ => ?_
  congr 1
  exact kernel_layer_apply d2 hd2 none _ W2 b2 hb2 r k _ fun k' =>
    kernel_layer_apply d1 hd1 none x W1 b1 hb1 r k' _ fun _ => rfl

/-- A block of `T` samples as columns: entry (a, n) of the three left products — the first contracting the rows of
    `W₁`, the others with the weights laid out output-first — with column biases, ReLUs and tanh is the head of
    column `n`. -/
theorem columns_block_apply {T : ℕ} {φ₁ φ₂ φ₃ φ₄ φ₅ φ₆ : FTy}
    (d1 : DotDims ⟨2, ![16, 64]⟩ ⟨2, ![16, T]⟩ ⟨2, ![64, T]⟩) (hd1 : d1 = rowsRows 16 64 T)
    (d2 : DotDims ⟨2, ![32, 64]⟩ ⟨2, ![64, T]⟩ ⟨2, ![32, T]⟩) (hd2 : d2 = DotDims.plain 32 64 T)
    (d3 : DotDims ⟨2, ![4, 32]⟩ ⟨2, ![32, T]⟩ ⟨2, ![4, T]⟩) (hd3 : d3 = DotDims.plain 4 32 T)
    (xt : FVec Ideal ⟨2, ![16, T]⟩ φ₁) (W1 : FVec Ideal ⟨2, ![16, 64]⟩ φ₂) (b1 : FVec Ideal ⟨2, ![1, 64]⟩ .f32)
    (W2t : FVec Ideal ⟨2, ![32, 64]⟩ φ₃) (b2 : FVec Ideal ⟨2, ![1, 32]⟩ .f32) (W3t : FVec Ideal ⟨2, ![4, 32]⟩ φ₄)
    (b3 : FVec Ideal ⟨2, ![1, 4]⟩ .f32)
    (c1 : FVec Ideal ⟨2, ![64, T]⟩ .f32 → FVec Ideal ⟨2, ![64, T]⟩ φ₅) (hc1 : ∀ v i, c1 v i = v i)
    (c2 : FVec Ideal ⟨2, ![32, T]⟩ .f32 → FVec Ideal ⟨2, ![32, T]⟩ φ₆) (hc2 : ∀ v i, c2 v i = v i)
    (ht1 : (⟨2, ![1, 64]⟩ : Shape).Transposes [1, 0] ⟨2, ![64, 1]⟩) (hb1 : (⟨2, ![64, 1]⟩ : Shape).Broadcasts ⟨2, ![64, T]⟩)
    (ht2 : (⟨2, ![1, 32]⟩ : Shape).Transposes [1, 0] ⟨2, ![32, 1]⟩) (hb2 : (⟨2, ![32, 1]⟩ : Shape).Broadcasts ⟨2, ![32, T]⟩)
    (ht3 : (⟨2, ![1, 4]⟩ : Shape).Transposes [1, 0] ⟨2, ![4, 1]⟩) (hb3 : (⟨2, ![4, 1]⟩ : Shape).Broadcasts ⟨2, ![4, T]⟩)
    (a : Fin 4) (n : Fin T) :
    tanh (addf (matmul d3 none W3t
        (c2 (maximumf (addf (matmul d2 none W2t
            (c1 (maximumf (addf (matmul d1 none W1 xt (constant (F := Ideal) ⟨2, ![64, T]⟩ .f32 0x00000000#32))
                (broadcastTo ⟨2, ![64, T]⟩ (transpose ⟨2, ![64, 1]⟩ [1, 0] b1 ht1) hb1))
              (broadcast ⟨2, ![64, T]⟩ (Scalar.ofBits (F := Ideal) .f32 0x00000000#32))))
            (constant (F := Ideal) ⟨2, ![32, T]⟩ .f32 0x00000000#32))
            (broadcastTo ⟨2, ![32, T]⟩ (transpose ⟨2, ![32, 1]⟩ [1, 0] b2 ht2) hb2))
          (broadcast ⟨2, ![32, T]⟩ (Scalar.ofBits (F := Ideal) .f32 0x00000000#32))))
        (constant (F := Ideal) ⟨2, ![4, T]⟩ .f32 0x00000000#32))
        (broadcastTo ⟨2, ![4, T]⟩ (transpose ⟨2, ![4, 1]⟩ [1, 0] b3 ht3) hb3)) (ix2 a n)
      = head (fun k => xt (ix2 k n)) (fun k j => W1 (ix2 k j)) (fun j => b1 (ix2 (0 : Fin 1) j))
          (fun k j => W2t (ix2 j k)) (fun j => b2 (ix2 (0 : Fin 1) j)) (fun k j => W3t (ix2 j k))
          (fun j => b3 (ix2 (0 : Fin 1) j)) a := by
  subst hd3
  show Ideal.tanh (FloatOps.matmul (DotDims.plain 4 32 T) none W3t _ (constant ⟨2, ![4, T]⟩ .f32 0x00000000#32) (ix2 a n)
      + broadcastTo ⟨2, ![4, T]⟩ (transpose ⟨2, ![4, 1]⟩ [1, 0] b3 ht3) hb3 (ix2 a n)) = _
  rw [matmul_plain_zero_apply, bias_column_apply]
  unfold head
  congr 2
  refine Finset.sum_congr rfl fun k _ => ?_
  rw [mul_comm]
  congr 1
  rw [hc2]
  exact left_layer_apply d2 hd2 none W2t _ b2 ht2 hb2 k n _ fun k' => by
    rw [hc1]
    exact rows_layer_apply d1 hd1 none W1 xt b1 ht1 hb1 k' n _ fun _ => rfl

end Cert.Actor

end
-- ==== Proof.KerArray.lean ====
/-
  The column-tiled program's result array.

  This program works on the transposed state: the host first transposes the state (16 × 524288, a sample per column)
  and the second and third weight matrices; the batch is cut into 8 tiles of 65536 columns. At tile `t` the body sees
  columns `65536·t …` of the transposed state and the weight and bias arrays whole, and writes columns `65536·t …` of a
  4 × 524288 array: entry (a, r) of what it writes is the head of the tile's column `r`, that is of sample
  `65536·t + r`, at output `a`. The tiles cover every column, and the host transposes the array back, so the result ends
  holding the head of every sample, row by row.
-/
import proofs.«100405_g2000005928858558_pallasbulk_957_15_alg».proof.Proof.Gen.KernelIdeal.Frame
import proofs.«100405_g2000005928858558_pallasbulk_957_15_alg».proof.Proof.Actor
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Columns

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The argument arrays, and what the host makes of them before the region -/

abbrev A0 (c : Dev nD) : S524288x16.Idx → EReal := m ((c : Thread nD τ).loc main_arg0)
abbrev A1 (c : Dev nD) : S16x64.Idx → EReal := m ((c : Thread nD τ).loc main_arg1)
abbrev A2 (c : Dev nD) : S1x64.Idx → EReal := m ((c : Thread nD τ).loc main_arg2)
abbrev A3 (c : Dev nD) : S64x32.Idx → EReal := m ((c : Thread nD τ).loc main_arg3)
abbrev A4 (c : Dev nD) : S1x32.Idx → EReal := m ((c : Thread nD τ).loc main_arg4)
abbrev A5 (c : Dev nD) : S32x4.Idx → EReal := m ((c : Thread nD τ).loc main_arg5)
abbrev A6 (c : Dev nD) : S1x4.Idx → EReal := m ((c : Thread nD τ).loc main_arg6)

/-- The region finds the state transposed: a sample per column. -/
theorem stateT_eq (c : Dev nD) :
    (V m c main_call0_v0 : S16x524288.Idx → EReal) = transpose S16x524288 [1, 0] (A0 m c) transposes_S524288x16_S16x524288_1_0 := by
  show StableHlo.after hostOps0 (fun b => m (c, b)) (Proc.devRef .tc main_call0_v0) = _
  after_results
  rfl

/-- It finds the second weight matrix transposed, -/
theorem w2T_eq (c : Dev nD) :
    (V m c main_call0_v1 : S32x64.Idx → EReal) = transpose S32x64 [1, 0] (A3 m c) transposes_S64x32_S32x64_1_0 := by
  show StableHlo.after hostOps0 (fun b => m (c, b)) (Proc.devRef .tc main_call0_v1) = _
  after_results
  rfl

/-- and the third. -/
theorem w3T_eq (c : Dev nD) :
    (V m c main_call0_v2 : S4x32.Idx → EReal) = transpose S4x32 [1, 0] (A5 m c) transposes_S32x4_S4x32_1_0 := by
  show StableHlo.after hostOps0 (fun b => m (c, b)) (Proc.devRef .tc main_call0_v2) = _
  after_results
  rfl

/-! ## The body's store at an index -/

/-- What the body stores, at output `a` and column `r` of the tile: the head of the loaded tile's column `r` (the weights
    of the later layers read output-first). -/
theorem payload_apply (x0 : Vec Ideal S16x65536 .f32) (x1 : Vec Ideal S16x64 .f32) (x2 : Vec Ideal S1x64 .f32)
    (x3 : Vec Ideal S32x64 .f32) (x4 : Vec Ideal S1x32 .f32) (x5 : Vec Ideal S4x32 .f32) (x6 : Vec Ideal S1x4 .f32)
    (a : Fin 4) (r : Fin 65536) :
    k0_pay1 x0 x1 x2 x3 x4 x5 x6 (ix2 a r)
      = Actor.head (fun k => x0 (ix2 k r)) (fun k j => x1 (ix2 k j)) (fun j => x2 (ix2 (0 : Fin 1) j))
          (fun k j => x3 (ix2 j k)) (fun j => x4 (ix2 (0 : Fin 1) j)) (fun k j => x5 (ix2 j k))
          (fun j => x6 (ix2 (0 : Fin 1) j)) a := by
  unfold k0_pay1
  simp only [shapeCast_self]
  exact Actor.columns_block_apply _ rfl _ rfl _ rfl (truncf .bf16 x0 bitsLt_bf16_f32) (truncf .bf16 x1 bitsLt_bf16_f32) x2
    (truncf .bf16 x3 bitsLt_bf16_f32) x4 (truncf .bf16 x5 bitsLt_bf16_f32) x6
    (fun v => truncf .bf16 v bitsLt_bf16_f32) (fun _ _ => rfl) (fun v => truncf .bf16 v bitsLt_bf16_f32) (fun _ _ => rfl)
    _ _ _ _ _ _ a r

/-! ## Where each window's block sits: the state's and the result's tile moves with the point, the others stay -/

theorem idx_w0 : ∀ t : Fin cfg0.N, win0_0.index t (0 : Fin 2) = 0 ∧ win0_0.index t (1 : Fin 2) = t.val :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = t.val :=
  (by decide +kernel : ∀ t : Fin grid0.N, _)

/-- Column `r` of the transposed state's tile at point `t` is sample `65536·t + r`. -/
theorem tile_apply (c : Dev nD) (t : Fin cfg0.N) (k : Fin 16) (r : Fin 65536) (n : Fin 524288)
    (hn : n.val = 65536 * t.val + r.val) :
    (iblk m c 0 t : Vec Ideal S16x65536 .f32) (ix2 k r) = A0 m c (ix2 n k) := by
  obtain ⟨e0, e1⟩ := idx_w0 t
  unfold iblk
  rw [View.read_apply]
  show V m c main_call0_v0 _ = _
  rw [stateT_eq m c]
  refine transpose_apply _ _ _ _ (ix2 n k) fun b => ?_
  match b with
  | ⟨0, _⟩ => show k.val = win0_0.index t (0 : Fin 2) * 16 + 1 * k.val; rw [e0]; omega
  | ⟨1, _⟩ => show n.val = win0_0.index t (1 : Fin 2) * 65536 + 1 * r.val; rw [e1, hn]; omega

/-- Window 1's block is the first weight matrix, whole, at every point. -/
theorem whole1 (c : Dev nD) (t : Fin cfg0.N) (x : S16x64.Idx) : (iblk m c 1 t : Vec Ideal S16x64 .f32) x = A1 m c x := by
  obtain ⟨e0, e1⟩ := idx_w1 t
  unfold iblk
  rw [View.read_apply]
  show V m c main_arg1 _ = _
  rw [V_main_arg1 m c]
  show m (c.tc.loc main_arg1) _ = m (c.tc.loc main_arg1) _
  congr 1
  funext a
  apply Fin.ext
  match a with
  | ⟨0, _⟩ => show win0_1.index t (0 : Fin 2) * 16 + 1 * (x 0).val = (x 0).val; rw [e0]; omega
  | ⟨1, _⟩ => show win0_1.index t (1 : Fin 2) * 64 + 1 * (x 1).val = (x 1).val; rw [e1]; omega

/-- Window 2's block is the first bias row. -/
theorem whole2 (c : Dev nD) (t : Fin cfg0.N) (x : S1x64.Idx) : (iblk m c 2 t : Vec Ideal S1x64 .f32) x = A2 m c x := by
  obtain ⟨e0, e1⟩ := idx_w2 t
  unfold iblk
  rw [View.read_apply]
  show V m c main_arg2 _ = _
  rw [V_main_arg2 m c]
  show m (c.tc.loc main_arg2) _ = m (c.tc.loc main_arg2) _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- Window 3's block is the second weight matrix transposed: entry (j, k) is the matrix's (k, j). -/
theorem whole3 (c : Dev nD) (t : Fin cfg0.N) (j : Fin 32) (k : Fin 64) :
    (iblk m c 3 t : Vec Ideal S32x64 .f32) (ix2 j k) = A3 m c (ix2 k j) := by
  obtain ⟨e0, e1⟩ := idx_w3 t
  unfold iblk
  rw [View.read_apply]
  show V m c main_call0_v1 _ = _
  rw [w2T_eq m c]
  refine transpose_apply _ _ _ _ (ix2 k j) fun b => ?_
  match b with
  | ⟨0, _⟩ => show j.val = win0_3.index t (0 : Fin 2) * 32 + 1 * j.val; rw [e0]; omega
  | ⟨1, _⟩ => show k.val = win0_3.index t (1 : Fin 2) * 64 + 1 * k.val; rw [e1]; omega

/-- Window 4's block is the second bias row. -/
theorem whole4 (c : Dev nD) (t : Fin cfg0.N) (x : S1x32.Idx) : (iblk m c 4 t : Vec Ideal S1x32 .f32) x = A4 m c x := by
  obtain ⟨e0, e1⟩ := idx_w4 t
  unfold iblk
  rw [View.read_apply]
  show V m c main_arg4 _ = _
  rw [V_main_arg4 m c]
  show m (c.tc.loc main_arg4) _ = m (c.tc.loc main_arg4) _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 32 + 1 * (x 1).val = (x 1).val; rw [e1]; omega

/-- Window 5's block is the third weight matrix transposed. -/
theorem whole5 (c : Dev nD) (t : Fin cfg0.N) (j : Fin 4) (k : Fin 32) :
    (iblk m c 5 t : Vec Ideal S4x32 .f32) (ix2 j k) = A5 m c (ix2 k j) := by
  obtain ⟨e0, e1⟩ := idx_w5 t
  unfold iblk
  rw [View.read_apply]
  show V m c main_call0_v2 _ = _
  rw [w3T_eq m c]
  refine transpose_apply _ _ _ _ (ix2 k j) fun b => ?_
  match b with
  | ⟨0, _⟩ => show j.val = win0_5.index t (0 : Fin 2) * 4 + 1 * j.val; rw [e0]; omega
  | ⟨1, _⟩ => show k.val = win0_5.index t (1 : Fin 2) * 32 + 1 * k.val; rw [e1]; omega

/-- Window 6's block is the third bias row. -/
theorem whole6 (c : Dev nD) (t : Fin cfg0.N) (x : S1x4.Idx) : (iblk m c 6 t : Vec Ideal S1x4 .f32) x = A6 m c x := by
  obtain ⟨e0, e1⟩ := idx_w6 t
  unfold iblk
  rw [View.read_apply]
  show V m c main_arg6 _ = _
  rw [V_main_arg6 m c]
  show m (c.tc.loc main_arg6) _ = m (c.tc.loc main_arg6) _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 4 + 1 * (x 1).val = (x 1).val; rw [e1]; omega

/-! ## What a point writes back, the cover, the array -/

/-- The 4 × 524288 array the region fills: column `n` holds the head of sample `n`. -/
abbrev columns (c : Dev nD) : S4x524288.Idx → EReal := fun i =>
  Actor.head (fun k => A0 m c (ix2 (i 1) k)) (fun k j => A1 m c (ix2 k j)) (fun j => A2 m c (ix2 (0 : Fin 1) j))
    (fun k j => A3 m c (ix2 k j)) (fun j => A4 m c (ix2 (0 : Fin 1) j)) (fun k j => A5 m c (ix2 k j))
    (fun j => A6 m c (ix2 (0 : Fin 1) j)) (i 0)

/-- Point `t` writes back tile `t` of `columns`. -/
theorem flushed_eq (c : Dev nD) (t : Fin cfg0.N) :
    (dats m 0 c).flushed 7 t = ((cfg0.win 7).blk t).view.read (Elt Ideal) (columns m c) := by
  show (cfg0.win 7).cut (grid0.coords t) ((dats m 0 c).after 7 t) = _
  rw [after0_7]
  unfold out0_7
  rw [View.canon_unit_zero hz]
  simp only [View.ld_unit_zero (S := S16x65536) hz, View.ld_unit_zero (S := S16x64) hz, View.ld_unit_zero (S := S1x64) hz,
    View.ld_unit_zero (S := S32x64) hz, View.ld_unit_zero (S := S1x32) hz, View.ld_unit_zero (S := S4x32) hz,
    View.ld_unit_zero (S := S1x4) hz]
  obtain ⟨e0, e1⟩ := idx_w7 t
  funext j
  obtain ⟨a, r, rfl⟩ : ∃ (a : Fin 4) (r : Fin 65536), j = ix2 a r := ⟨j 0, j 1, eq_ix2 j⟩
  show k0_pay1 (iblk m c 0 t) (iblk m c 1 t) (iblk m c 2 t) (iblk m c 3 t) (iblk m c 4 t) (iblk m c 5 t) (iblk m c 6 t) (ix2 a r)
    = columns m c (((cfg0.win 7).blk t).view.emb (ix2 a r))
  refine (payload_apply (iblk m c 0 t) (iblk m c 1 t) (iblk m c 2 t) (iblk m c 3 t) (iblk m c 4 t) (iblk m c 5 t)
    (iblk m c 6 t) a r).trans ?_
  refine Actor.head_congr (fun k => tile_apply m c t k r _ ?_) (fun k j => whole1 m c t _) (fun j => whole2 m c t _)
    (fun k j => whole3 m c t j k) (fun j => whole4 m c t _) (fun k j => whole5 m c t j k) (fun j => whole6 m c t _) ?_
  · show win0_7.index t (1 : Fin 2) * 65536 + 1 * r.val = 65536 * t.val + r.val
    rw [e1]; omega
  · apply Fin.ext
    show a.val = win0_7.index t (0 : Fin 2) * 4 + 1 * a.val
    rw [e0]; omega

/-- An index of the region's array is in point `t`'s tile iff each coordinate is in the tile's range on its axis. -/
theorem mem_tile (t : Fin cfg0.N) (i : S4x524288.Idx) :
    i ∈ ((cfg0.win 7).blk t).view.set ↔ ∀ a : Fin 2, win0_7.index t a * S4x65536.size a ≤ (i a).val
      ∧ (i a).val < win0_7.index t a * S4x65536.size a + S4x65536.size a := by
  show i ∈ ((View.whole main_call0_v3).slice (win0_7.rect t)).set ↔ _
  rw [View.set_slice_whole, Rect.mem_set_unit]
  exact Iff.rfl

/-- Column `n` lies in tile `n / 65536`. -/
theorem cover (i : S4x524288.Idx) :
    ∃ t : Fin cfg0.N, (cfg0.win 7).flush t = true ∧ i ∈ ((cfg0.win 7).blk t).view.set := by
  have hi0 : (i 0).val < 4 := (i 0).isLt
  have hi1 : (i 1).val < 524288 := (i 1).isLt
  have hN : cfg0.N = 8 := N_0
  have ht : (i 1).val / 65536 < cfg0.N := by rw [hN]; omega
  obtain ⟨e0, e1⟩ := idx_w7 ⟨(i 1).val / 65536, ht⟩
  refine ⟨⟨(i 1).val / 65536, ht⟩, flush0_7 _, ?_⟩
  rw [mem_tile]
  intro a
  match a with
  | ⟨0, _⟩ =>
    show win0_7.index ⟨(i 1).val / 65536, ht⟩ (0 : Fin 2) * 4 ≤ (i 0).val
      ∧ (i 0).val < win0_7.index ⟨(i 1).val / 65536, ht⟩ (0 : Fin 2) * 4 + 4
    rw [e0]; omega
  | ⟨1, _⟩ =>
    show win0_7.index ⟨(i 1).val / 65536, ht⟩ (1 : Fin 2) * 65536 ≤ (i 1).val
      ∧ (i 1).val < win0_7.index ⟨(i 1).val / 65536, ht⟩ (1 : Fin 2) * 65536 + 65536
    rw [e1]
    show (i 1).val / 65536 * 65536 ≤ (i 1).val ∧ (i 1).val < (i 1).val / 65536 * 65536 + 65536
    omega

/-- The region's array after the run. -/
theorem final (c : Dev nD) : (dats m 0 c).arrAt 7 cfg0.N = columns m c :=
  (dats m 0 c).arrAt_eq_of_cover 7 (columns m c) (fun t _ => flushed_eq m c t) cover

/-! ## The host's transpose back, and the run -/

/-- The head of every sample, row by row. -/
abbrev result (c : Dev nD) : S524288x4.Idx → EReal :=
  Actor.batch (A0 m c) (A1 m c) (A2 m c) (A3 m c) (A4 m c) (A5 m c) (A6 m c)

/-- Transposed back, the columns are the batch's rows. -/
theorem columns_transposed (c : Dev nD) :
    transpose S524288x4 [1, 0] (columns m c) transposes_S4x524288_S524288x4_1_0 = result m c := by
  funext j
  obtain ⟨n, a, rfl⟩ : ∃ (n : Fin 524288) (a : Fin 4), j = ix2 n a := ⟨j 0, j 1, eq_ix2 j⟩
  rw [transpose_ix2_apply]
  rfl

/-- What the host's last line leaves in the result buffer. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  refine Eq.trans ?_ (columns_transposed m c)
  refine congrArg (fun x => transpose S524288x4 [1, 0] x transposes_S4x524288_S524288x4_1_0) ?_
  exact (Pipeline.withArrays_arr spec0 launch0.win.arr_inj c (V0 m c) (fun w => (dats m 0 c).arrAt w cfg0.N) 7).trans (final m c)

/-- The run, read: the result buffer at the head of every sample, the arguments unchanged (an argument the region
    stages ends as the region found it; one it does not stage ends as the host's last line leaves it, untouched). -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Columns

end
-- ==== Proof.RefArray.lean ====
/-
  The row-tiled program's result array.

  The batch of 524288 samples is cut into 256 tiles of 2048 rows. At tile `t` the body sees rows
  `2048·t … 2048·t + 2047` of the state and the six weight and bias arrays whole, and writes rows `2048·t …` of the
  result: entry (r, a) of what it writes is the head of the tile's row `r`, that is of sample `2048·t + r`. The tiles
  cover every row (row `n` lies in tile `n / 2048`), so the result array ends holding the head of every sample.
-/
import proofs.«100405_g2000005928858558_pallasbulk_957_15_alg».proof.Proof.Gen.ReferenceIdeal.Value
import proofs.«100405_g2000005928858558_pallasbulk_957_15_alg».proof.Proof.Actor
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Rows

open Cert.ReferenceIdeal Cert.ReferenceIdeal.Gen Cert.ReferenceIdeal.Value

variable (m : (ℓ : Loc nD τ sig) → Buf (Elt Ideal) ℓ) (ρ : Dev nD → PrngReg)

theorem hz : (![0, 0] : Fin 2 → Nat) = fun _ => 0 := funext fun a => by fin_cases a <;> rfl

/-- The head of every sample, from the argument arrays. -/
abbrev result (c : Dev nD) : S524288x4.Idx → EReal :=
  Actor.batch (m ((c : Thread nD τ).loc main_arg0) : S524288x16.Idx → EReal)
    (m ((c : Thread nD τ).loc main_arg1) : S16x64.Idx → EReal) (m ((c : Thread nD τ).loc main_arg2) : S1x64.Idx → EReal)
    (m ((c : Thread nD τ).loc main_arg3) : S64x32.Idx → EReal) (m ((c : Thread nD τ).loc main_arg4) : S1x32.Idx → EReal)
    (m ((c : Thread nD τ).loc main_arg5) : S32x4.Idx → EReal) (m ((c : Thread nD τ).loc main_arg6) : S1x4.Idx → EReal)

/-- What the body stores, at row `r` and output `a` of the tile: the head of the loaded tile's row `r`. -/
theorem payload_apply (x0 : Vec Ideal S2048x16 .f32) (x1 : Vec Ideal S16x64 .f32) (x2 : Vec Ideal S1x64 .f32)
    (x3 : Vec Ideal S64x32 .f32) (x4 : Vec Ideal S1x32 .f32) (x5 : Vec Ideal S32x4 .f32) (x6 : Vec Ideal S1x4 .f32)
    (r : Fin 2048) (a : Fin 4) :
    k0_pay1 x0 x1 x2 x3 x4 x5 x6 (ix2 r a)
      = Actor.head (fun k => x0 (ix2 r k)) (fun k j => x1 (ix2 k j)) (fun j => x2 (ix2 (0 : Fin 1) j))
          (fun k j => x3 (ix2 k j)) (fun j => x4 (ix2 (0 : Fin 1) j)) (fun k j => x5 (ix2 k j))
          (fun j => x6 (ix2 (0 : Fin 1) j)) a := by
  unfold k0_pay1
  exact Actor.rows_block_apply _ rfl _ rfl _ rfl x0 x1 x2 x3 x4 x5 x6 _ _ _ r a

/-! ## Where each window's block sits: the state's and the result's tile moves with the point, the others stay -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = t.val ∧ win0_7.index t (1 : Fin 2) = 0 :=
  (by decide +kernel : ∀ t : Fin grid0.N, _)

/-- Row `r` of the state's tile at point `t` is row `2048·t + r` of the state. -/
theorem tile_apply (c : Dev nD) (t : Fin cfg0.N) (r : Fin 2048) (k : Fin 16) (n : Fin 524288)
    (hn : n.val = 2048 * t.val + r.val) :
    (iblk m c 0 t : Vec Ideal S2048x16 .f32) (ix2 r k)
      = (m ((c : Thread nD τ).loc main_arg0) : S524288x16.Idx → EReal) (ix2 n k) := by
  obtain ⟨e0, e1⟩ := idx_w0 t
  unfold iblk
  rw [View.read_apply]
  show V m c main_arg0 _ = m (c.tc.loc main_arg0) _
  unfold V
  congr 1
  funext a
  apply Fin.ext
  match a with
  | ⟨0, _⟩ => show win0_0.index t (0 : Fin 2) * 2048 + 1 * r.val = n.val; rw [e0, hn]; omega
  | ⟨1, _⟩ => show win0_0.index t (1 : Fin 2) * 16 + 1 * k.val = k.val; rw [e1]; omega

/-- Window 1's block is the whole of its argument array at every point. -/
theorem whole1 (c : Dev nD) (t : Fin cfg0.N) :
    (iblk m c 1 t : Vec Ideal S16x64 .f32) = (m ((c : Thread nD τ).loc main_arg1) : S16x64.Idx → EReal) := by
  obtain ⟨e0, e1⟩ := idx_w1 t
  funext x
  unfold iblk
  rw [View.read_apply]
  show V m c main_arg1 _ = m (c.tc.loc main_arg1) _
  unfold V
  congr 1
  funext a
  apply Fin.ext
  match a with
  | ⟨0, _⟩ => show win0_1.index t (0 : Fin 2) * 16 + 1 * (x 0).val = (x 0).val; rw [e0]; omega
  | ⟨1, _⟩ => show win0_1.index t (1 : Fin 2) * 64 + 1 * (x 1).val = (x 1).val; rw [e1]; omega

/-- Window 2's block is the whole of its argument array at every point. -/
theorem whole2 (c : Dev nD) (t : Fin cfg0.N) :
    (iblk m c 2 t : Vec Ideal S1x64 .f32) = (m ((c : Thread nD τ).loc main_arg2) : S1x64.Idx → EReal) := by
  obtain ⟨e0, e1⟩ := idx_w2 t
  funext x
  unfold iblk
  rw [View.read_apply]
  show V m c main_arg2 _ = m (c.tc.loc main_arg2) _
  unfold V
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- Window 3's block is the whole of its argument array at every point. -/
theorem whole3 (c : Dev nD) (t : Fin cfg0.N) :
    (iblk m c 3 t : Vec Ideal S64x32 .f32) = (m ((c : Thread nD τ).loc main_arg3) : S64x32.Idx → EReal) := by
  obtain ⟨e0, e1⟩ := idx_w3 t
  funext x
  unfold iblk
  rw [View.read_apply]
  show V m c main_arg3 _ = m (c.tc.loc main_arg3) _
  unfold V
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 32 + 1 * (x 1).val = (x 1).val; rw [e1]; omega

/-- Window 4's block is the whole of its argument array at every point. -/
theorem whole4 (c : Dev nD) (t : Fin cfg0.N) :
    (iblk m c 4 t : Vec Ideal S1x32 .f32) = (m ((c : Thread nD τ).loc main_arg4) : S1x32.Idx → EReal) := by
  obtain ⟨e0, e1⟩ := idx_w4 t
  funext x
  unfold iblk
  rw [View.read_apply]
  show V m c main_arg4 _ = m (c.tc.loc main_arg4) _
  unfold V
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 32 + 1 * (x 1).val = (x 1).val; rw [e1]; omega

/-- Window 5's block is the whole of its argument array at every point. -/
theorem whole5 (c : Dev nD) (t : Fin cfg0.N) :
    (iblk m c 5 t : Vec Ideal S32x4 .f32) = (m ((c : Thread nD τ).loc main_arg5) : S32x4.Idx → EReal) := by
  obtain ⟨e0, e1⟩ := idx_w5 t
  funext x
  unfold iblk
  rw [View.read_apply]
  show V m c main_arg5 _ = m (c.tc.loc main_arg5) _
  unfold V
  congr 1
  funext a
  apply Fin.ext
  match a with
  | ⟨0, _⟩ => show win0_5.index t (0 : Fin 2) * 32 + 1 * (x 0).val = (x 0).val; rw [e0]; omega
  | ⟨1, _⟩ => show win0_5.index t (1 : Fin 2) * 4 + 1 * (x 1).val = (x 1).val; rw [e1]; omega

/-- Window 6's block is the whole of its argument array at every point. -/
theorem whole6 (c : Dev nD) (t : Fin cfg0.N) :
    (iblk m c 6 t : Vec Ideal S1x4 .f32) = (m ((c : Thread nD τ).loc main_arg6) : S1x4.Idx → EReal) := by
  obtain ⟨e0, e1⟩ := idx_w6 t
  funext x
  unfold iblk
  rw [View.read_apply]
  show V m c main_arg6 _ = m (c.tc.loc main_arg6) _
  unfold V
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 4 + 1 * (x 1).val = (x 1).val; rw [e1]; omega

/-! ## What a point writes back, the cover, the array -/

/-- Point `t` writes back tile `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S2048x16) hz, View.ld_unit_zero (S := S16x64) hz, View.ld_unit_zero (S := S1x64) hz,
    View.ld_unit_zero (S := S64x32) hz, View.ld_unit_zero (S := S1x32) hz, View.ld_unit_zero (S := S32x4) hz,
    View.ld_unit_zero (S := S1x4) hz]
  obtain ⟨e0, e1⟩ := idx_w7 t
  funext j
  obtain ⟨r, a, rfl⟩ : ∃ (r : Fin 2048) (a : Fin 4), j = ix2 r a := ⟨j 0, j 1, eq_ix2 j⟩
  show k0_pay1 (iblk m c 0 t) (iblk m c 1 t) (iblk m c 2 t) (iblk m c 3 t) (iblk m c 4 t) (iblk m c 5 t) (iblk m c 6 t) (ix2 r a)
    = result m c (((cfg0.win 7).blk t).view.emb (ix2 r a))
  refine (payload_apply (iblk m c 0 t) (iblk m c 1 t) (iblk m c 2 t) (iblk m c 3 t) (iblk m c 4 t) (iblk m c 5 t)
    (iblk m c 6 t) r a).trans ?_
  rw [whole1 m c t, whole2 m c t, whole3 m c t, whole4 m c t, whole5 m c t, whole6 m c t]
  refine (Actor.batch_apply _ _ _ _ _ _ _ (((cfg0.win 7).blk t).view.emb (ix2 r a)) _ a (fun k => ?_) ?_).symm
  · refine (tile_apply m c t r k _ ?_).symm
    show win0_7.index t (0 : Fin 2) * 2048 + 1 * r.val = 2048 * t.val + r.val
    rw [e0]; omega
  · apply Fin.ext
    show win0_7.index t (1 : Fin 2) * 4 + 1 * a.val = a.val
    rw [e1]; omega

/-- An index of the result array is in point `t`'s tile iff each coordinate is in the tile's range on its axis. -/
theorem mem_tile (t : Fin cfg0.N) (i : S524288x4.Idx) :
    i ∈ ((cfg0.win 7).blk t).view.set ↔ ∀ a : Fin 2, win0_7.index t a * S2048x4.size a ≤ (i a).val
      ∧ (i a).val < win0_7.index t a * S2048x4.size a + S2048x4.size a := by
  show i ∈ ((View.whole main_v0).slice (win0_7.rect t)).set ↔ _
  rw [View.set_slice_whole, Rect.mem_set_unit]
  exact Iff.rfl

/-- Row `n` of the result lies in tile `n / 2048`. -/
theorem cover (i : S524288x4.Idx) :
    ∃ t : Fin cfg0.N, (cfg0.win 7).flush t = true ∧ i ∈ ((cfg0.win 7).blk t).view.set := by
  have hi0 : (i 0).val < 524288 := (i 0).isLt
  have hi1 : (i 1).val < 4 := (i 1).isLt
  have hN : cfg0.N = 256 := N_0
  have ht : (i 0).val / 2048 < cfg0.N := by rw [hN]; omega
  obtain ⟨e0, e1⟩ := idx_w7 ⟨(i 0).val / 2048, ht⟩
  refine ⟨⟨(i 0).val / 2048, ht⟩, flush0_7 _, ?_⟩
  rw [mem_tile]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_7.index ⟨(i 0).val / 2048, ht⟩ (1 : Fin 2) * 4 ≤ (i 1).val
      ∧ (i 1).val < win0_7.index ⟨(i 0).val / 2048, ht⟩ (1 : Fin 2) * 4 + 4
    rw [e1]; omega

/-- The result array after the run. -/
theorem final (c : Dev nD) : (dats m 0 c).arrAt 7 cfg0.N = result m c :=
  (dats m 0 c).arrAt_eq_of_cover 7 (result m c) (fun t _ => flushed_eq m c t) cover

/-- The run, read: the result array at the head of every sample, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.ReferenceIdeal.Rows

end
-- ==== Proof.lean ====
/-
  The actor head `tanh (relu (relu (x·W₁ + b₁)·W₂ + b₂)·W₃ + b₃)` over a batch of 524288 samples of 16 features,
  computed two ways that agree on the extended reals.

  One program cuts the batch into 256 tiles of 2048 ROWS and multiplies each tile by the weights from the right.
  The other transposes the state first, cuts it into 8 tiles of 65536 COLUMNS, multiplies by the transposed weights
  from the left (the biases standing as columns), and transposes the 4 × 524288 outcome back. A change of float
  format is the identity on the extended reals, so the narrowing of the matrix operands does nothing there. Entry
  (n, a) of either result is the head of sample `n` at output `a`: in the column form every product under a sum has
  its two factors in the other order, and multiplication of extended reals commutes; the sums run over the same
  index in the same order. No law that fails at the infinities is used, so the finiteness of the inputs is not needed.

  Each program's frame is its generated frame certificate. The idealization rewrote nothing, so `preserves` is trivial.
-/
import proofs.«100405_g2000005928858558_pallasbulk_957_15_alg».proof.Defs
import proofs.«100405_g2000005928858558_pallasbulk_957_15_alg».proof.Proof.Gen.Kernel
import proofs.«100405_g2000005928858558_pallasbulk_957_15_alg».proof.Proof.Gen.Kernel.Frame
import proofs.«100405_g2000005928858558_pallasbulk_957_15_alg».proof.Proof.Gen.KernelIdeal
import proofs.«100405_g2000005928858558_pallasbulk_957_15_alg».proof.Proof.Gen.KernelIdeal.Frame
import proofs.«100405_g2000005928858558_pallasbulk_957_15_alg».proof.Proof.Gen.ReferenceIdeal
import proofs.«100405_g2000005928858558_pallasbulk_957_15_alg».proof.Proof.Gen.ReferenceIdeal.Frame
import proofs.«100405_g2000005928858558_pallasbulk_957_15_alg».proof.Proof.Gen.Pre_finite_inputs
import proofs.«100405_g2000005928858558_pallasbulk_957_15_alg».proof.Proof.KerArray
import proofs.«100405_g2000005928858558_pallasbulk_957_15_alg».proof.Proof.RefArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Both runs end with the result array at the head of every sample of THEIR OWN arguments; the arguments agree, so
    the two arrays are one. -/
theorem algebraic : Cert.algebraic_KernelIdeal_ReferenceIdeal := by
  intro m ρ m' ρ' _ hagree
  refine ⟨fun c => Cert.KernelIdeal.Columns.result m c, Cert.KernelIdeal.Columns.run m ρ, ?_⟩
  refine (θ_run Cert.ReferenceIdeal.defs _ _).mono (fun _ h c => ⟨(h c).1.trans ?_, (h c).2⟩)
    (Cert.ReferenceIdeal.Rows.run m' ρ')
  obtain ⟨e0, e1, e2, e3, e4, e5, e6⟩ := hagree c
  show Cert.Actor.batch _ _ _ _ _ _ _ = Cert.Actor.batch _ _ _ _ _ _ _
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
